-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096x1 : Shape := ⟨2, ![4096, 1]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S1024x4096 .f32) (main_arg1 : FVec F S4096x4096 .f32) (main_arg2 : FVec F S4096x1 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  main_v13
-- ==== Kernel.lean ====
abbrev S1024x4096 : Shape := ⟨2, ![1024, 4096]⟩
abbrev S4096x4096 : Shape := ⟨2, ![4096, 4096]⟩
abbrev S4096x1 : Shape := ⟨2, ![4096, 1]⟩
abbrev S1x4096 : Shape := ⟨2, ![1, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x1, .f32⟩
  | .hbm, ⟨3, _⟩ => ⟨S1x4096, .f32⟩
  | .hbm, ⟨4, _⟩ => ⟨S1024x4096, .f32⟩
  | .local _ .vmem, ⟨0, _⟩ => ⟨S1024x4096, .f32⟩
  | .local _ .vmem, ⟨1, _⟩ => ⟨S512x4096, .f32⟩
  | .local _ .vmem, ⟨2, _⟩ => ⟨S512x4096, .f32⟩
  | .local _ .vmem, ⟨3, _⟩ => ⟨S1x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x1_S1x4096 : S4096x1.ShapeCasts S1x4096
  inb_S1024x4096_S1024x4096_0_0 : ∀ a, (![0, 0] : Fin 2 → Nat) a + S1024x4096.size a ≤ S1024x4096.size a
  h_S1024x4096 : 0 < S1024x4096.numel
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .f32 = 32 ∨ (Rect.block (s := S1024x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x4096.size a
  hwx0_3 : ∀ i : grid0.Coords, EltTy.bits .f32 = 32 ∨ (Rect.block (s := S1024x4096) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S4096x4096 : Shape := ⟨2, ![4096, 4096]⟩
abbrev S4096x1 : Shape := ⟨2, ![4096, 1]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x1, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S1024x4096_S4096x1024_1_0 : S1024x4096.Transposes [1, 0] S4096x1024
  bcast_S4096x1_S4096x1024_0_1 : S4096x1.BroadcastsInDim S4096x1024 (![0, 1] : Fin 2 → Fin S4096x1024.rank)
  transposes_S4096x1024_S1024x4096_1_0 : S4096x1024.Transposes [1, 0] S1024x4096
  dot_S4096x4096_S4096x1024_S4096x1024_1_0_0_1_n_n_wf : DotDims.WF S4096x4096 S4096x1024 S4096x1024 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.LibDenseNT.lean ====
/-
  A matrix product with the right operand transposed, read at an entry.

  For dimension numbers that contract axis 1 of BOTH operands and have no batch axis, entry (p, q) of the product of an
  [M × K] left operand with an [N × K] right operand is the sum over k of left (p, k) times right (q, k): the rows of
  the two operands are paired, so the right operand enters as its transpose. Stated for the vector unit's product into
  a zero accumulator, into any accumulator, and for the host's general dot. The hypotheses are the printed dimension
  numbers, each closed by rfl at a use.
-/
import Idealize.ShloMosaic.PureOps.Ideal
import Idealize.ShloMosaic.PureOps.Ideal.Laws
import Idealize.ShloMosaic.Lib.ValueIdx

noncomputable section

namespace Cert.LibDenseNT

open Idealize.ShloMosaic Idealize.ShloMosaic.ValueIdx

variable {M K N : ℕ} (d : DotDims ⟨2, ![M, K]⟩ ⟨2, ![N, K]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's COLUMN: the result's second axis is the right operand's free axis. -/
theorem rhs_row (hln : d.lhsNonContracting = [0]) (hrn : d.rhsNonContracting = [0]) (hlb : d.lhsBatch = []) (hrb : d.rhsBatch = [])
    (j : (⟨2, ![M, N]⟩ : Shape).Idx) (k : d.contr.Idx) : (d.rhsIdx j k 0).val = (j 1).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The right operand's column is the contraction index. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (q, k). -/
theorem sum_contr (hlc : d.lhsContracting = [1]) (hrc : d.rhsContracting = [1]) (hln : d.lhsNonContracting = [0])
    (hrn : d.rhsNonContracting = [0]) (hlb : d.lhsBatch = []) (hrb : d.rhsBatch = [])
    (x : (⟨2, ![M, K]⟩ : Shape).Idx → EReal) (w : (⟨2, ![N, K]⟩ : Shape).Idx → EReal) (p : Fin M) (q : Fin N) :
    ∑ k : d.contr.Idx, x (d.lhsIdx (ix2 p q) k) * w (d.rhsIdx (ix2 p q) k) = ∑ kk : Fin K, x (ix2 p kk) * w (ix2 q kk) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 q kk := by
    funext a; apply Fin.ext
    match a with
    | ⟨0, _⟩ => exact rhs_row d hln hrn hlb hrb _ _
    | ⟨1, _⟩ => exact (rhs_col d hrc _ _).trans hk
  rw [el, er]

/-- The vector unit's product into a zero accumulator, read at (p, q). -/
theorem matmul_zero_apply {φ₁ φ₂ : FTy} (prec : Option ContractPrecision)
    (hlc : d.lhsContracting = [1]) (hrc : d.rhsContracting = [1]) (hln : d.lhsNonContracting = [0])
    (hrn : d.rhsNonContracting = [0]) (hlb : d.lhsBatch = []) (hrb : d.rhsBatch = [])
    (x : FVec Ideal ⟨2, ![M, K]⟩ φ₁) (w : FVec Ideal ⟨2, ![N, K]⟩ φ₂) (p : Fin M) (q : Fin N) :
    FloatOps.matmul d prec x w (constant ⟨2, ![M, N]⟩ .f32 0x00000000#32) (ix2 p q) = ∑ kk : Fin K, x (ix2 p kk) * w (ix2 q kk) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [1]) (hln : d.lhsNonContracting = [0])
    (hrn : d.rhsNonContracting = [0]) (hlb : d.lhsBatch = []) (hrb : d.rhsBatch = [])
    (x : FVec Ideal ⟨2, ![M, K]⟩ φ₁) (w : FVec Ideal ⟨2, ![N, K]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 q kk) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [1]) (hln : d.lhsNonContracting = [0])
    (hrn : d.rhsNonContracting = [0]) (hlb : d.lhsBatch = []) (hrb : d.rhsBatch = [])
    (x : FVec Ideal ⟨2, ![M, K]⟩ φ₁) (w : FVec Ideal ⟨2, ![N, K]⟩ φ₂) (p : Fin M) (q : Fin N) :
    FloatOps.dotGeneral d prec sched x w (ix2 p q) = ∑ kk : Fin K, x (ix2 p kk) * w (ix2 q kk) := by
  rw [Ideal.dotGeneral_apply]
  exact sum_contr d hlc hrc hln hrn hlb hrb x w p q

end Cert.LibDenseNT

end
-- ==== Proof.KernelPayload.lean ====
/-
  What one grid step stores, entry by entry, at the extended reals.

  The step holds all of x (1024 × 4096), a slab of 512 rows of w (512 × 4096) and the matching 512 entries of the bias
  row (1 × 512). It multiplies x by the slab transposed into a zero accumulator and adds the bias row to every row of
  the product. So entry (p, q) of what it stores is

      (Σ_k x (p, k) · slab (q, k)) + row (0, q):

  the product is a sum of paired rows, the shape cast of the bias row to its own shape changes nothing, and the
  broadcast down the 1024 rows reads the row's entry q whatever p is.
-/
import proofs.«145850_g1915555414388_cont_8to1_1657_16_alg».proof.Proof.Gen.KernelIdeal.Skeleton
import proofs.«145850_g1915555414388_cont_8to1_1657_16_alg».proof.Proof.LibDenseNT
import Idealize.ShloMosaic.Lib.Pipeline.Value
import Idealize.ShloMosaic.Lib.ValueIdx
import Idealize.ShloMosaic.PureOps.Ideal.Laws

noncomputable section

namespace Cert.KernelIdeal.Step

open Cert.KernelIdeal Cert.KernelIdeal.Gen Idealize.ShloMosaic Idealize.ShloMosaic.ValueIdx

/-- The bias row, cast to its own shape and broadcast down the rows, reads the row's entry q at (p, q). -/
theorem biasRows_apply (row : Vec Ideal S1x512 .f32) (p : Fin 1024) (q : Fin 512) :
    broadcastTo S1024x512 (shapeCast S1x512 row Facts₀.shapeCasts_S1x512_S1x512) Facts₀.broadcasts_S1x512_S1024x512 (ix2 p q)
      = row (ix2 (0 : Fin 1) q) :=
  (broadcastTo_apply _ Facts₀.broadcasts_S1x512_S1024x512 (ix2 p q) (ix2 (0 : Fin 1) q) (fun a => match a with
    | ⟨0, _⟩ => by show (0 : Nat) = if (1 : Nat) = 1 then 0 else _; rw [if_pos rfl]
    | ⟨1, _⟩ => by show q.val = if (512 : Nat) = 1 then 0 else q.val; rw [if_neg (by decide)])).trans
    (congrFun (shapeCast_self row Facts₀.shapeCasts_S1x512_S1x512) (ix2 (0 : Fin 1) q))

/-- Entry (p, q) of what the step stores: row p of x against row q of the slab, plus the bias row's entry q. -/
theorem stored_apply (x : Vec Ideal S1024x4096 .f32) (slab : Vec Ideal S512x4096 .f32) (row : Vec Ideal S1x512 .f32)
    (p : Fin 1024) (q : Fin 512) :
    k0_pay1 (F := Ideal) x slab row (ix2 p q) = (∑ k : Fin 4096, x (ix2 p k) * slab (ix2 q k)) + row (ix2 (0 : Fin 1) q) := by
  unfold k0_pay1
  exact congrArg₂ (· + ·)
    (Cert.LibDenseNT.matmul_zero_apply dot_S1024x4096_S512x4096_S1024x512_1_1_0_0_n_n none rfl rfl rfl rfl rfl rfl x slab p q)
    (biasRows_apply row p q)

end Cert.KernelIdeal.Step

end
-- ==== Proof.Spec.lean ====
/-
  The linear layer as one function of its three arguments, entry by entry:

      out (b, o) = (Σ_k x (b, k) · w (o, k)) + bias (o, 0)        b < 1024, o < 4096, k < 4096,

  a row of x against a row of w, plus that row's bias. The same layer written the other way round — the bias first, and
  each product with the weight on the left — is the same function on the extended reals, because sum and product there
  are commutative; nothing is distributed or cancelled, so the equation holds at infinite entries too.
-/
import Idealize.ShloMosaic.PureOps.Ideal
import Idealize.ShloMosaic.Lib.ValueIdx

noncomputable section

namespace Cert.Linear

open Idealize.ShloMosaic Idealize.ShloMosaic.ValueIdx

/-- Entry (b, o) of the layer: row b of x against row o of w, plus bias o. -/
def layer (x : (⟨2, ![1024, 4096]⟩ : Shape).Idx → EReal) (w : (⟨2, ![4096, 4096]⟩ : Shape).Idx → EReal)
    (bias : (⟨2, ![4096, 1]⟩ : Shape).Idx → EReal) : (⟨2, ![1024, 4096]⟩ : Shape).Idx → EReal :=
  fun i => (∑ k : Fin 4096, x (ix2 (i 0 : Fin 1024) k) * w (ix2 (i 1 : Fin 4096) k)) + bias (ix2 (i 1 : Fin 4096) (0 : Fin 1))

/-- The layer at explicit coordinates. -/
theorem layer_apply (x : (⟨2, ![1024, 4096]⟩ : Shape).Idx → EReal) (w : (⟨2, ![4096, 4096]⟩ : Shape).Idx → EReal)
    (bias : (⟨2, ![4096, 1]⟩ : Shape).Idx → EReal) (b : Fin 1024) (o : Fin 4096) :
    layer x w bias (ix2 b o) = (∑ k : Fin 4096, x (ix2 b k) * w (ix2 o k)) + bias (ix2 o (0 : Fin 1)) := rfl

/-- Bias first and the weight on the left of each product: the same entry. -/
theorem layer_comm (x : (⟨2, ![1024, 4096]⟩ : Shape).Idx → EReal) (w : (⟨2, ![4096, 4096]⟩ : Shape).Idx → EReal)
    (bias : (⟨2, ![4096, 1]⟩ : Shape).Idx → EReal) (b : Fin 1024) (o : Fin 4096) :
    bias (ix2 o (0 : Fin 1)) + ∑ k : Fin 4096, w (ix2 o k) * x (ix2 b k) = layer x w bias (ix2 b o) := by
  rw [layer_apply, add_comm]
  exact congrArg (· + bias (ix2 o (0 : Fin 1))) (Finset.sum_congr rfl fun k _ => mul_comm _ _)

end Cert.Linear

end
-- ==== Proof.KernelValue.lean ====
/-
  From the grid steps to the whole result array.

  The grid has 8 steps. Step t stages all of x, rows 512·t … 512·t + 511 of w, entries 512·t … 512·t + 511 of the bias
  row (the bias column reshaped to one row before the call, so that its entry (0, o) is the column's entry (o, 0)), and
  writes back the 1024 × 512 block of the result whose columns are 512·t … 512·t + 511. Entry (p, q) of what it stores
  is row p of x against row q of the slab plus the row's entry q, which is the layer's entry (p, 512·t + q). The 8
  blocks tile the 4096 columns (column o lies in block o / 512), so after the run the result array is the layer of the
  three arguments.
-/
import proofs.«145850_g1915555414388_cont_8to1_1657_16_alg».proof.Proof.Gen.KernelIdeal.Value
import proofs.«145850_g1915555414388_cont_8to1_1657_16_alg».proof.Proof.KernelPayload
import proofs.«145850_g1915555414388_cont_8to1_1657_16_alg».proof.Proof.Spec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

/-- The zero offsets of a whole-buffer access. -/
theorem hz : (![0, 0] : Fin 2 → Nat) = fun _ => 0 := funext fun a => by fin_cases a <;> rfl

/-- The grid has 8 steps. -/
theorem points_lt (t : Fin cfg0.N) : t.val < 8 := Nat.lt_of_lt_of_eq t.isLt N_0

/-- The bias row the call is given is the bias column reshaped. -/
theorem biasRow_eq (c : Dev nD) :
    (V m c main_v0 : S1x4096.Idx → EReal) = shapeCast S1x4096 (m ((c : Thread nD τ).loc main_arg2)) Facts₀.shapeCasts_S4096x1_S1x4096 := by
  dsimp only [Gen.V, Gen.hostOps0]
  after_results
  rfl

/-- Its entry (0, o) is the column's entry (o, 0): both are element o in row-major order. -/
theorem biasRow_apply (c : Dev nD) (o : Fin 4096) :
    (V m c main_v0 : S1x4096.Idx → EReal) (ix2 (0 : Fin 1) o) = (m ((c : Thread nD τ).loc main_arg2) : S4096x1.Idx → EReal) (ix2 o (0 : Fin 1)) := by
  rw [biasRow_eq]
  refine shapeCast_apply _ Facts₀.shapeCasts_S4096x1_S1x4096 (ix2 (0 : Fin 1) o) (ix2 o (0 : Fin 1)) ?_
  rw [Shape.rowMajor_val_two, Shape.rowMajor_val_two]
  show o.val * 1 + 0 = 0 * 4096 + o.val
  omega

/-- The block index of each window at step t: x stays at block (0, 0); the slab of w is block (t, 0); the bias row's piece and
    the result's block are block (0, t). Decided over the 8 steps. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The staged x is all of x. -/
theorem xBlock_apply (c : Dev nD) (t : Fin cfg0.N) (p : Fin 1024) (k : Fin 4096) :
    (iblk m c 0 t : Vec Ideal S1024x4096 .f32) (ix2 p k) = (V m c main_arg0 : S1024x4096.Idx → EReal) (ix2 p k) := by
  obtain ⟨e0, e1, -⟩ := idx_facts t
  unfold iblk
  rw [View.read_apply]
  show V m c main_arg0 _ = V m c main_arg0 _
  congr 1
  funext a; apply Fin.ext
  match a with
  | ⟨0, _⟩ => show win0_0.index t (0 : Fin 2) * 1024 + 1 * p.val = p.val; rw [e0]; omega
  | ⟨1, _⟩ => show win0_0.index t (1 : Fin 2) * 4096 + 1 * k.val = k.val; rw [e1]; omega

/-- Row q of step t's slab is row 512·t + q of w. -/
theorem wBlock_apply (c : Dev nD) (t : Fin cfg0.N) (q : Fin 512) (k : Fin 4096) :
    (iblk m c 1 t : Vec Ideal S512x4096 .f32) (ix2 q k)
      = (V m c main_arg1 : S4096x4096.Idx → EReal) (ix2 (⟨512 * t.val + q.val, by have := points_lt t; omega⟩ : Fin 4096) k) := by
  obtain ⟨-, -, e2, e3, -⟩ := idx_facts t
  unfold iblk
  rw [View.read_apply]
  show V m c main_arg1 _ = V m c main_arg1 _
  congr 1
  funext a; apply Fin.ext
  match a with
  | ⟨0, _⟩ => show win0_1.index t (0 : Fin 2) * 512 + 1 * q.val = 512 * t.val + q.val; rw [e2]; omega
  | ⟨1, _⟩ => show win0_1.index t (1 : Fin 2) * 4096 + 1 * k.val = k.val; rw [e3]; omega

/-- Entry q of step t's piece of the bias row is the row's entry 512·t + q. -/
theorem bBlock_apply (c : Dev nD) (t : Fin cfg0.N) (q : Fin 512) :
    (iblk m c 2 t : Vec Ideal S1x512 .f32) (ix2 (0 : Fin 1) q)
      = (V m c main_v0 : S1x4096.Idx → EReal) (ix2 (0 : Fin 1) (⟨512 * t.val + q.val, by have := points_lt t; omega⟩ : Fin 4096)) := by
  obtain ⟨-, -, -, -, e4, e5, -⟩ := idx_facts t
  unfold iblk
  rw [View.read_apply]
  show V m c main_v0 _ = V m c main_v0 _
  congr 1
  funext a; apply Fin.ext
  match a with
  | ⟨0, _⟩ => show win0_2.index t (0 : Fin 2) * 1 + 1 * 0 = 0; rw [e4]
  | ⟨1, _⟩ => show win0_2.index t (1 : Fin 2) * 512 + 1 * q.val = 512 * t.val + q.val; rw [e5]; omega

/-- A step whose three blocks are those rows of the arrays X, W and the bias column B stores, at (p, q), the layer's entry
    (p, 512·n + q). -/
theorem step_entry (X : S1024x4096.Idx → EReal) (W : S4096x4096.Idx → EReal) (B : S4096x1.Idx → EReal)
    (x : Vec Ideal S1024x4096 .f32) (slab : Vec Ideal S512x4096 .f32) (row : Vec Ideal S1x512 .f32) (n : ℕ) (hn : n < 8)
    (hx : ∀ (p : Fin 1024) (k : Fin 4096), x (ix2 p k) = X (ix2 p k))
    (hs : ∀ (q : Fin 512) (k : Fin 4096), slab (ix2 q k) = W (ix2 (⟨512 * n + q.val, by omega⟩ : Fin 4096) k))
    (hr : ∀ q : Fin 512, row (ix2 (0 : Fin 1) q) = B (ix2 (⟨512 * n + q.val, by omega⟩ : Fin 4096) (0 : Fin 1)))
    (p : Fin 1024) (q : Fin 512) :
    k0_pay1 (F := Ideal) x slab row (ix2 p q) = Cert.Linear.layer X W B (ix2 p (⟨512 * n + q.val, by omega⟩ : Fin 4096)) := by
  rw [Cert.KernelIdeal.Step.stored_apply, Cert.Linear.layer_apply]
  exact congrArg₂ (· + ·) (Finset.sum_congr rfl fun k _ => by rw [hx, hs]) (hr q)

/-- What step t writes back is its block of the layer of the arrays. -/
theorem flushed_eq (c : Dev nD) (t : Fin cfg0.N) :
    (dats m 0 c).flushed 3 t = ((cfg0.win 3).blk t).view.read (Elt Ideal)
      (Cert.Linear.layer (V m c main_arg0) (V m c main_arg1) (m ((c : Thread nD τ).loc main_arg2))) := by
  rw [Value.flushed3]
  unfold out0_3
  rw [View.canon_unit_zero hz]
  simp only [View.ld_unit_zero (S := S1024x4096) hz, View.ld_unit_zero (S := S512x4096) hz, View.ld_unit_zero (S := S1x512) hz]
  funext j
  have hj0 : (j 0).val < 1024 := (j 0).isLt
  have hj1 : (j 1).val < 512 := (j 1).isLt
  have ht := points_lt t
  obtain ⟨-, -, -, -, -, -, e6, e7⟩ := idx_facts t
  have hxi : (win0 3).xinj (grid0.coords t) j = ix2 (⟨(j 0).val, hj0⟩ : Fin 1024) (⟨(j 1).val, hj1⟩ : Fin 512) :=
    funext fun a => match a with | ⟨0, _⟩ => rfl | ⟨1, _⟩ => rfl
  refine (congrArg (k0_pay1 (F := Ideal) (iblk m c 0 t) (iblk m c 1 t) (iblk m c 2 t)) hxi).trans ?_
  refine (step_entry (V m c main_arg0) (V m c main_arg1) (m ((c : Thread nD τ).loc main_arg2))
    (iblk m c 0 t) (iblk m c 1 t) (iblk m c 2 t) t.val ht (xBlock_apply m c t) (wBlock_apply m c t)
    (fun q => (bBlock_apply m c t q).trans (biasRow_apply m c _)) ⟨(j 0).val, hj0⟩ ⟨(j 1).val, hj1⟩).trans ?_
  show Cert.Linear.layer _ _ _ _ = Cert.Linear.layer _ _ _ (((cfg0.win 3).blk t).view.emb j)
  congr 1
  funext a; apply Fin.ext
  match a with
  | ⟨0, _⟩ => show (j 0).val = win0_3.index t (0 : Fin 2) * 1024 + 1 * (j 0).val; rw [e6]; omega
  | ⟨1, _⟩ => show 512 * t.val + (j 1).val = win0_3.index t (1 : Fin 2) * 512 + 1 * (j 1).val; rw [e7]; omega

/-- An entry lies in step t's block iff its column is one of the block's 512. -/
theorem mem_blk (t : Fin cfg0.N) (i : S1024x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- Every entry of the result lies in the block of the step its column selects: column o in step o / 512. -/
theorem cover (i : S1024x4096.Idx) : ∃ t : Fin cfg0.N, (cfg0.win 3).flush t = true ∧ i ∈ ((cfg0.win 3).blk t).view.set := by
  have hi0 : (i 0).val < 1024 := (i 0).isLt
  have hi1 : (i 1).val < 4096 := (i 1).isLt
  obtain ⟨t, ht⟩ : ∃ t : Fin cfg0.N, t.val = (i 1).val / 512 :=
    ⟨⟨(i 1).val / 512, Nat.lt_of_lt_of_eq (show (i 1).val / 512 < 8 by omega) N_0.symm⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; rw [e6]; omega
  | ⟨1, _⟩ => show win0_3.index t (1 : Fin 2) * 512 ≤ (i 1).val ∧ (i 1).val < win0_3.index t (1 : Fin 2) * 512 + 512; rw [e7, ht]; omega

/-- After the run the result array is the layer of the three arguments. -/
theorem final (c : Dev nD) : (dats m 0 c).arrAt 3 cfg0.N
    = Cert.Linear.layer (m ((c : Thread nD τ).loc main_arg0)) (m ((c : Thread nD τ).loc main_arg1)) (m ((c : Thread nD τ).loc main_arg2)) :=
  ((dats m 0 c).arrAt_eq_of_cover 3
      (Cert.Linear.layer (V m c main_arg0) (V m c main_arg1) (m ((c : Thread nD τ).loc main_arg2)))
      (fun t _ => flushed_eq m c t) cover).trans
    (by rw [V_main_arg0, V_main_arg1])

/-- Every weakly fair execution of the kernel's program ends with the result array at the layer of the arguments, and
    the arguments as they were. -/
theorem run : θ_run defs (onTc (τ := τ) (main (F := Ideal))) ⟨m, fun _ => 0, ρ⟩ fun r => ∀ c : Dev nD,
      r.2.mem ((c : Thread nD τ).loc main_v1)
        = Cert.Linear.layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefLayer.lean ====
/-
  The reference computes the layer.

  The reference transposes x, multiplies w by it (4096 × 4096 times 4096 × 1024), adds the bias column broadcast along
  the 1024 columns, and transposes back. Read at entry (b, o) of the result this is entry (o, b) of the sum, that is

      bias (o, 0) + Σ_k w (o, k) · x (b, k):

  the layer's entry with the bias first and the weight on the left of each product.
-/
import proofs.«145850_g1915555414388_cont_8to1_1657_16_alg».proof.Proof.Gen.ReferenceIdeal.Read
import proofs.«145850_g1915555414388_cont_8to1_1657_16_alg».proof.Proof.Spec
import Idealize.ShloMosaic.Lib.ValueIdx

noncomputable section

namespace Cert.ReferenceIdeal.RefLayer

open Cert.ReferenceIdeal Cert.ReferenceIdeal.Gen Cert.ReferenceIdeal.Read Idealize.ShloMosaic Idealize.ShloMosaic.ValueIdx

/-- Entry (b, o) of the result is read at (o, b) of the sum; there the bias column is read at (o, 0), -/
theorem bias_at (b : Fin 1024) (o : Fin 4096) : idx_main_v2 (idx_main_v4 (ix2 b o)) = ix2 o (0 : Fin 1) :=
  funext fun a => Fin.ext (by match a with | ⟨0, _⟩ => rfl | ⟨1, _⟩ => rfl)

/-- the weight at (o, k), -/
theorem weight_at (b : Fin 1024) (o : Fin 4096) (k : Fin 4096) : lidx_main_v1 (idx_main_v4 (ix2 b o)) k = ix2 o k :=
  funext fun a => Fin.ext (by match a with | ⟨0, _⟩ => rfl | ⟨1, _⟩ => rfl)

/-- and the transposed x at (k, b), which is x at (b, k). -/
theorem x_at (b : Fin 1024) (o : Fin 4096) (k : Fin 4096) : idx_main_v0 (ridx_main_v1 (idx_main_v4 (ix2 b o)) k) = ix2 b k :=
  funext fun a => Fin.ext (by match a with | ⟨0, _⟩ => rfl | ⟨1, _⟩ => rfl)

/-- The reference's last stage is the layer of its three arguments. -/
theorem result_eq (x : S1024x4096.Idx → EReal) (w : S4096x4096.Idx → EReal) (bias : S4096x1.Idx → EReal) :
    val_main_v4 (F := Ideal) x w bias = Cert.Linear.layer x w bias := by
  funext i
  obtain ⟨b, o, rfl⟩ : ∃ (b : Fin 1024) (o : Fin 4096), i = ix2 b o := ⟨i 0, i 1, eq_ix2 i⟩
  rw [val_main_v4_apply, val_main_v3_apply, val_main_v2_apply, val_main_v1_apply]
  simp only [val_main_v0_apply, bias_at, weight_at, x_at]
  exact Cert.Linear.layer_comm x w bias b o

end Cert.ReferenceIdeal.RefLayer

end
-- ==== Proof.lean ====
/- The kernel computes a dense linear layer, out (b, o) = Σ_k x (b, k) · w (o, k) + bias (o, 0), over x : 1024 × 4096,
   w : 4096 × 4096 and a bias column 4096 × 1, and so does the reference; the claim is that they agree on the extended
   reals, entry by entry.

   The kernel reshapes the bias column to a row and runs 8 grid steps; step t multiplies x by rows 512·t … 512·t + 511 of w
   (transposed) into a zero accumulator, adds the matching piece of the bias row to every row, and writes columns
   512·t … 512·t + 511 of the result. Entry (p, q) of a step's block is row p of x against row q of the slab plus the
   row's entry q (Proof/LibDenseNT.lean, Proof/KernelPayload.lean); the 8 blocks tile the result, which is therefore the
   layer of the arguments (Proof/KernelValue.lean).

   The reference transposes x, multiplies w by it, adds the bias column broadcast along the columns, and transposes
   back: at (b, o) that is bias (o, 0) + Σ_k w (o, k) · x (b, k) (Proof/RefLayer.lean), the same entry because sum and
   product of extended reals are commutative (Proof/Spec.lean). Nothing is distributed or cancelled, so the inputs'
   finiteness is not used.

   The three programs' termination and the arguments' preservation are the generated frames and the reference's
   generated run; the idealization rewrote no operation, so its conjunct is trivial. -/
import proofs.«145850_g1915555414388_cont_8to1_1657_16_alg».proof.Defs
import proofs.«145850_g1915555414388_cont_8to1_1657_16_alg».proof.Proof.Gen.Kernel
import proofs.«145850_g1915555414388_cont_8to1_1657_16_alg».proof.Proof.Gen.Kernel.Skeleton
import proofs.«145850_g1915555414388_cont_8to1_1657_16_alg».proof.Proof.Gen.Kernel.Launch
import proofs.«145850_g1915555414388_cont_8to1_1657_16_alg».proof.Proof.Gen.Kernel.Points
import proofs.«145850_g1915555414388_cont_8to1_1657_16_alg».proof.Proof.Gen.Kernel.Frame
import proofs.«145850_g1915555414388_cont_8to1_1657_16_alg».proof.Proof.Gen.KernelIdeal
import proofs.«145850_g1915555414388_cont_8to1_1657_16_alg».proof.Proof.Gen.KernelIdeal.Skeleton
import proofs.«145850_g1915555414388_cont_8to1_1657_16_alg».proof.Proof.Gen.KernelIdeal.Launch
import proofs.«145850_g1915555414388_cont_8to1_1657_16_alg».proof.Proof.Gen.KernelIdeal.Points
import proofs.«145850_g1915555414388_cont_8to1_1657_16_alg».proof.Proof.Gen.KernelIdeal.Frame
import proofs.«145850_g1915555414388_cont_8to1_1657_16_alg».proof.Proof.Gen.ReferenceIdeal
import proofs.«145850_g1915555414388_cont_8to1_1657_16_alg».proof.Proof.Gen.Pre_finite_inputs
import proofs.«145850_g1915555414388_cont_8to1_1657_16_alg».proof.Proof.Gen.KernelIdeal.Value
import proofs.«145850_g1915555414388_cont_8to1_1657_16_alg».proof.Proof.Gen.ReferenceIdeal.Run
import proofs.«145850_g1915555414388_cont_8to1_1657_16_alg».proof.Proof.Gen.ReferenceIdeal.Read
import proofs.«145850_g1915555414388_cont_8to1_1657_16_alg».proof.Proof.KernelValue
import proofs.«145850_g1915555414388_cont_8to1_1657_16_alg».proof.Proof.RefLayer
import Idealize.ShloMosaic.Adequacy
import Idealize.ShloMosaic.Init

noncomputable section

namespace Cert.Proof

open Idealize.ShloMosaic Idealize.SL.Sem Cert.Kernel

/-- Both idealized programs end with the result array at the layer of arguments that agree. -/
theorem algebraic : Cert.algebraic_KernelIdeal_ReferenceIdeal := by
  intro m ρ m' ρ' _ hagree
  refine ⟨fun c => Cert.Linear.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefLayer.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
